-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S384x128 : Shape := ⟨2, ![384, 128]⟩
abbrev S_ : Shape := ⟨0, ![]⟩

class Facts : Prop where
  bcast_S_S384x128 : S_.BroadcastsInDim S384x128 (![] : Fin 0 → Fin S384x128.rank)
  reducesTo_S384x128_S_d0_1 : S384x128.ReducesTo [0, 1] S_
  h_S_ : 0 < S_.numel

variable [Facts]

def fn {F : FTy → Type} [FloatOps F] (main_arg0 : FVec F S384x128 .f32) (main_arg1 : FVec F S384x128 .f32) : IVec S_ 1 :=
  let main_v0 : FVec F S384x128 .f32 := Host.absf main_arg0
  let main_cst : FVec F S_ .f32 := constant S_ .f32 0x7F800000#32
  let main_v1 : FVec F S384x128 .f32 := broadcastInDim S384x128 ![] bcast_S_S384x128 main_cst
  let main_v2 : IVec S384x128 1 := cmpf .olt main_v0 main_v1
  let main_c : IVec S_ 1 := constantI S_ 1 1#1
  let main_v3 : IVec S_ 1 := (fun x v => Host.reduce IntOp.andi x v reducesTo_S384x128_S_d0_1 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  main_v8
-- ==== Kernel.lean ====
abbrev S384x128 : Shape := ⟨2, ![384, 128]⟩
abbrev S_ : Shape := ⟨0, ![]⟩
abbrev S384 : Shape := ⟨1, ![384]⟩
abbrev S384x1 : Shape := ⟨2, ![384, 1]⟩
abbrev S128x384 : Shape := ⟨2, ![128, 384]⟩
abbrev S384x384 : Shape := ⟨2, ![384, 384]⟩
abbrev S8x384 : Shape := ⟨2, ![8, 384]⟩
abbrev S8x384x1 : Shape := ⟨3, ![8, 384, 1]⟩
abbrev S8x1x384 : Shape := ⟨3, ![8, 1, 384]⟩
abbrev S8x384x384 : Shape := ⟨3, ![8, 384, 384]⟩

abbrev nBuf : Space → Nat
  | .hbm => 65
  | .vmem => 8
  | .smem => 0
  | _ => 0

abbrev bufTy : (tb : Table) → Fin (tcTables nBuf tb) → BufTy
  | .hbm, ⟨0, _⟩ => ⟨S384x128, .f32⟩
  | .hbm, ⟨1, _⟩ => ⟨S384x128, .f32⟩
  | .hbm, ⟨2, _⟩ => ⟨S384x128, .f32⟩
  | .hbm, ⟨3, _⟩ => ⟨S_, .f32⟩
  | .hbm, ⟨4, _⟩ => ⟨S384, .f32⟩
  | .hbm, ⟨5, _⟩ => ⟨S384x1, .f32⟩
  | .hbm, ⟨6, _⟩ => ⟨S384x1, .f32⟩
  | .hbm, ⟨7, _⟩ => ⟨S_, .f32⟩
  | .hbm, ⟨8, _⟩ => ⟨S384x1, .f32⟩
  | .hbm, ⟨9, _⟩ => ⟨S384x1, .f32⟩
  | .hbm, ⟨10, _⟩ => ⟨S384x128, .f32⟩
  | .hbm, ⟨11, _⟩ => ⟨S384x128, .f32⟩
  | .hbm, ⟨12, _⟩ => ⟨S128x384, .f32⟩
  | .hbm, ⟨13, _⟩ => ⟨S384x384, .f32⟩
  | .hbm, ⟨14, _⟩ => ⟨S_, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x128, .f32⟩
  | .hbm, ⟨34, _⟩ => ⟨S_, .f32⟩
  | .hbm, ⟨35, _⟩ => ⟨S384, .f32⟩
  | .hbm, ⟨36, _⟩ => ⟨S384x1, .f32⟩
  | .hbm, ⟨37, _⟩ => ⟨S384x1, .f32⟩
  | .hbm, ⟨38, _⟩ => ⟨S_, .f32⟩
  | .hbm, ⟨39, _⟩ => ⟨S384x1, .f32⟩
  | .hbm, ⟨40, _⟩ => ⟨S384x1, .f32⟩
  | .hbm, ⟨41, _⟩ => ⟨S384x128, .f32⟩
  | .hbm, ⟨42, _⟩ => ⟨S384x128, .f32⟩
  | .hbm, ⟨43, _⟩ => ⟨S128x384, .f32⟩
  | .hbm, ⟨44, _⟩ => ⟨S384x384, .f32⟩
  | .hbm, ⟨45, _⟩ => ⟨S_, .f32⟩
  | .hbm, ⟨46, _⟩ => ⟨S384x384, .f32⟩
  | .hbm, ⟨47, _⟩ => ⟨S384x384, .f32⟩
  | .hbm, ⟨48, _⟩ => ⟨S384x384, .f32⟩
  | .hbm, ⟨49, _⟩ => ⟨S384x384, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S8x384, .f32⟩
  | .local _ .vmem, ⟨1, _⟩ => ⟨S8x384, .f32⟩
  | .local _ .vmem, ⟨2, _⟩ => ⟨S8x384, .f32⟩
  | .local _ .vmem, ⟨3, _⟩ => ⟨S8x384, .f32⟩
  | .local _ .vmem, ⟨4, _⟩ => ⟨S8x384, .f32⟩
  | .local _ .vmem, ⟨5, _⟩ => ⟨S8x384, .f32⟩
  | .local _ .vmem, ⟨6, _⟩ => ⟨S8x384, .f32⟩
  | .local _ .vmem, ⟨7, _⟩ => ⟨S8x384, .f32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_cst_10 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_cst_12 : Ref sig .tc := ⟨.hbm, 58, rfl⟩
abbrev main_call2_v0 : Ref sig .tc := ⟨.hbm, 59, rfl⟩
abbrev main_v35 : Ref sig .tc := ⟨.hbm, 60, rfl⟩
abbrev main_v36 : Ref sig .tc := ⟨.hbm, 61, rfl⟩
abbrev main_cst_13 : Ref sig .tc := ⟨.hbm, 62, rfl⟩
abbrev main_call3_v0 : Ref sig .tc := ⟨.hbm, 63, rfl⟩
abbrev main_v37 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S_S384x1 : S_.BroadcastsInDim S384x1 (![] : Fin 0 → Fin S384x1.rank)
  bcast_S384x1_S384x128_0_1 : S384x1.BroadcastsInDim S384x128 (![0, 1] : Fin 2 → Fin S384x128.rank)
  transposes_S384x128_S128x384_1_0 : S384x128.Transposes [1, 0] S128x384
  bcast_S_S384x384 : S_.BroadcastsInDim S384x384 (![] : Fin 0 → Fin S384x384.rank)
  reducesTo_S384x384_S_d0_1 : S384x384.ReducesTo [0, 1] S_
  inb_S8x384_S8x384_0_0 : ∀ a, (![0, 0] : Fin 2 → Nat) a + S8x384.size a ≤ S8x384.size a
  h_S8x384 : 0 < S8x384.numel
  shapeCasts_S8x384_S8x384 : S8x384.ShapeCasts S8x384
  shapeCasts_S8x384_S8x384x1 : S8x384.ShapeCasts S8x384x1
  shapeCasts_S8x384_S8x1x384 : S8x384.ShapeCasts S8x1x384
  broadcasts_S8x384x1_S8x384x384 : S8x384x1.Broadcasts S8x384x384
  broadcasts_S8x1x384_S8x384x384 : S8x1x384.Broadcasts S8x384x384
  natLt_1_32 : 1 < 32
  reduces_S8x384x384_S8x384 : S8x384x384.Reduces [2] S8x384
  dot_S384x128_S128x384_S384x384_1_0_0_1_n_n_wf : DotDims.WF S384x128 S128x384 S384x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x384.size a ≤ S384x384.size a
  hwx0_0 : ∀ i : grid0.Coords, EltTy.bits .f32 = 32 ∨ (Rect.block (s := S384x384) S8x384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x384.size a ≤ S384x384.size a
  hwx0_1 : ∀ i : grid0.Coords, EltTy.bits .f32 = 32 ∨ (Rect.block (s := S384x384) S8x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x384.size a ≤ S384x384.size a
  hwx0_2 : ∀ i : grid0.Coords, EltTy.bits .f32 = 32 ∨ (Rect.block (s := S384x384) S8x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x384.size a ≤ S384x384.size a
  hwx0_3 : ∀ i : grid0.Coords, EltTy.bits .f32 = 32 ∨ (Rect.block (s := S384x384) S8x384.size (cc0_transform_3 i) (hinb0_3 i)).WholeWords (EltTy.packing .f32)

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

abbrev win0_0 : Pipeline.Window sig grid0 :=
  Pipeline.Window.ofSpec (Memref.whole main_v28) S8x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S8x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S8x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S384x128 : Shape := ⟨2, ![384, 128]⟩
abbrev S_ : Shape := ⟨0, ![]⟩
abbrev S384 : Shape := ⟨1, ![384]⟩
abbrev S384x1 : Shape := ⟨2, ![384, 1]⟩
abbrev S128x384 : Shape := ⟨2, ![128, 384]⟩
abbrev S384x384 : Shape := ⟨2, ![384, 384]⟩
abbrev S384x384x1 : Shape := ⟨3, ![384, 384, 1]⟩
abbrev S384x1x384 : Shape := ⟨3, ![384, 1, 384]⟩
abbrev S384x384x384 : Shape := ⟨3, ![384, 384, 384]⟩

abbrev nBuf : Space → Nat
  | .hbm => 100
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S384x128, .f32⟩
  | .hbm, ⟨2, _⟩ => ⟨S384x128, .f32⟩
  | .hbm, ⟨3, _⟩ => ⟨S_, .f32⟩
  | .hbm, ⟨4, _⟩ => ⟨S384, .f32⟩
  | .hbm, ⟨5, _⟩ => ⟨S384x1, .f32⟩
  | .hbm, ⟨6, _⟩ => ⟨S384x1, .f32⟩
  | .hbm, ⟨7, _⟩ => ⟨S_, .f32⟩
  | .hbm, ⟨8, _⟩ => ⟨S384x1, .f32⟩
  | .hbm, ⟨9, _⟩ => ⟨S384x1, .f32⟩
  | .hbm, ⟨10, _⟩ => ⟨S384x128, .f32⟩
  | .hbm, ⟨11, _⟩ => ⟨S384x128, .f32⟩
  | .hbm, ⟨12, _⟩ => ⟨S128x384, .f32⟩
  | .hbm, ⟨13, _⟩ => ⟨S384x384, .f32⟩
  | .hbm, ⟨14, _⟩ => ⟨S_, .f32⟩
  | .hbm, ⟨15, _⟩ => ⟨S384x384, .f32⟩
  | .hbm, ⟨16, _⟩ => ⟨S384x384, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S384x384, .f32⟩
  | .hbm, ⟨24, _⟩ => ⟨S384x384, .f32⟩
  | .hbm, ⟨25, _⟩ => ⟨S384x384, .f32⟩
  | .hbm, ⟨26, _⟩ => ⟨S_, .f32⟩
  | .hbm, ⟨27, _⟩ => ⟨S384x384, .f32⟩
  | .hbm, ⟨28, _⟩ => ⟨S384x384, .f32⟩
  | .hbm, ⟨29, _⟩ => ⟨S384x384, .f32⟩
  | .hbm, ⟨30, _⟩ => ⟨S_, .f32⟩
  | .hbm, ⟨31, _⟩ => ⟨S384x384, .f32⟩
  | .hbm, ⟨32, _⟩ => ⟨S384x384, .f32⟩
  | .hbm, ⟨33, _⟩ => ⟨S384x384x1, .f32⟩
  | .hbm, ⟨34, _⟩ => ⟨S384x1x384, .f32⟩
  | .hbm, ⟨35, _⟩ => ⟨S384x384x384, .f32⟩
  | .hbm, ⟨36, _⟩ => ⟨S384x384x384, .f32⟩
  | .hbm, ⟨37, _⟩ => ⟨S384x384x384, .f32⟩
  | .hbm, ⟨38, _⟩ => ⟨S384x128, .f32⟩
  | .hbm, ⟨39, _⟩ => ⟨S_, .f32⟩
  | .hbm, ⟨40, _⟩ => ⟨S384, .f32⟩
  | .hbm, ⟨41, _⟩ => ⟨S384x1, .f32⟩
  | .hbm, ⟨42, _⟩ => ⟨S384x1, .f32⟩
  | .hbm, ⟨43, _⟩ => ⟨S_, .f32⟩
  | .hbm, ⟨44, _⟩ => ⟨S384x1, .f32⟩
  | .hbm, ⟨45, _⟩ => ⟨S384x1, .f32⟩
  | .hbm, ⟨46, _⟩ => ⟨S384x128, .f32⟩
  | .hbm, ⟨47, _⟩ => ⟨S384x128, .f32⟩
  | .hbm, ⟨48, _⟩ => ⟨S128x384, .f32⟩
  | .hbm, ⟨49, _⟩ => ⟨S384x384, .f32⟩
  | .hbm, ⟨50, _⟩ => ⟨S_, .f32⟩
  | .hbm, ⟨51, _⟩ => ⟨S384x384, .f32⟩
  | .hbm, ⟨52, _⟩ => ⟨S384x384, .f32⟩
  | .hbm, ⟨53, _⟩ => ⟨S384x1x384, .f32⟩
  | .hbm, ⟨54, _⟩ => ⟨S384x384x1, .f32⟩
  | .hbm, ⟨55, _⟩ => ⟨S384x384x384, .f32⟩
  | .hbm, ⟨56, _⟩ => ⟨S384x384x384, .f32⟩
  | .hbm, ⟨57, _⟩ => ⟨S384x384x384, .f32⟩
  | .hbm, ⟨58, _⟩ => ⟨S_, .f32⟩
  | .hbm, ⟨59, _⟩ => ⟨S384x384x384, .f32⟩
  | .hbm, ⟨60, _⟩ => ⟨S384x384x384, .f32⟩
  | .hbm, ⟨61, _⟩ => ⟨S_, .f32⟩
  | .hbm, ⟨62, _⟩ => ⟨S384x384x384, .f32⟩
  | .hbm, ⟨63, _⟩ => ⟨S384x384x384, .f32⟩
  | .hbm, ⟨64, _⟩ => ⟨S_, .f32⟩
  | .hbm, ⟨65, _⟩ => ⟨S384x384x384, .f32⟩
  | .hbm, ⟨66, _⟩ => ⟨S384x384x384, .i1⟩
  | .hbm, ⟨67, _⟩ => ⟨S_, .f32⟩
  | .hbm, ⟨68, _⟩ => ⟨S384x384x384, .f32⟩
  | .hbm, ⟨69, _⟩ => ⟨S384x384x384, .i1⟩
  | .hbm, ⟨70, _⟩ => ⟨S384x384x384, .i1⟩
  | .hbm, ⟨71, _⟩ => ⟨S384x384x384, .f32⟩
  | .hbm, ⟨72, _⟩ => ⟨S384x384x384, .f32⟩
  | .hbm, ⟨73, _⟩ => ⟨S384x384x384, .f32⟩
  | .hbm, ⟨74, _⟩ => ⟨S_, .f32⟩
  | .hbm, ⟨75, _⟩ => ⟨S384x384, .f32⟩
  | .hbm, ⟨76, _⟩ => ⟨S_, .f32⟩
  | .hbm, ⟨77, _⟩ => ⟨S384x384, .f32⟩
  | .hbm, ⟨78, _⟩ => ⟨S384x384, .i1⟩
  | .hbm, ⟨79, _⟩ => ⟨S384x384, .f32⟩
  | .hbm, ⟨80, _⟩ => ⟨S_, .f32⟩
  | .hbm, ⟨81, _⟩ => ⟨S384x384, .f32⟩
  | .hbm, ⟨82, _⟩ => ⟨S384x384, .f32⟩
  | .hbm, ⟨83, _⟩ => ⟨S384x384, .f32⟩
  | .hbm, ⟨84, _⟩ => ⟨S384x384, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .i1⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_call1_v2 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_call2_cst : Ref sig .tc := ⟨.hbm, 61, rfl⟩
abbrev main_call2_v0 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_11 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_cst_17 : Ref sig .tc := ⟨.hbm, 91, rfl⟩
abbrev main_v61 : Ref sig .tc := ⟨.hbm, 92, rfl⟩
abbrev main_cst_18 : Ref sig .tc := ⟨.hbm, 93, rfl⟩
abbrev main_call3_v0 : Ref sig .tc := ⟨.hbm, 94, rfl⟩
abbrev main_v62 : Ref sig .tc := ⟨.hbm, 95, rfl⟩
abbrev main_v63 : Ref sig .tc := ⟨.hbm, 96, rfl⟩
abbrev main_cst_19 : Ref sig .tc := ⟨.hbm, 97, rfl⟩
abbrev main_call4_v0 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  reducesTo_S384x128_S384_d1 : S384x128.ReducesTo [1] S384
  h_S_ : 0 < S_.numel
  bcast_S384_S384x1_0 : S384.BroadcastsInDim S384x1 (![0] : Fin 1 → Fin S384x1.rank)
  bcast_S_S384x1 : S_.BroadcastsInDim S384x1 (![] : Fin 0 → Fin S384x1.rank)
  bcast_S384x1_S384x128_0_1 : S384x1.BroadcastsInDim S384x128 (![0, 1] : Fin 2 → Fin S384x128.rank)
  transposes_S384x128_S128x384_1_0 : S384x128.Transposes [1, 0] S128x384
  bcast_S_S384x384 : S_.BroadcastsInDim S384x384 (![] : Fin 0 → Fin S384x384.rank)
  reducesTo_S384x384_S_d0_1 : S384x384.ReducesTo [0, 1] S_
  bcast_S384x384_S384x384x1_0_1 : S384x384.BroadcastsInDim S384x384x1 (![0, 1] : Fin 2 → Fin S384x384x1.rank)
  bcast_S384x384_S384x1x384_0_2 : S384x384.BroadcastsInDim S384x1x384 (![0, 2] : Fin 2 → Fin S384x1x384.rank)
  bcast_S384x384x1_S384x384x384_0_1_2 : S384x384x1.BroadcastsInDim S384x384x384 (![0, 1, 2] : Fin 3 → Fin S384x384x384.rank)
  bcast_S384x1x384_S384x384x384_0_1_2 : S384x1x384.BroadcastsInDim S384x384x384 (![0, 1, 2] : Fin 3 → Fin S384x384x384.rank)
  bcast_S_S384x384x384 : S_.BroadcastsInDim S384x384x384 (![] : Fin 0 → Fin S384x384x384.rank)
  reducesTo_S384x384x384_S384x384_d2 : S384x384x384.ReducesTo [2] S384x384
  dot_S384x128_S128x384_S384x384_1_0_0_1_n_n_wf : DotDims.WF S384x128 S128x384 S384x384 [1] [0] [0] [1] [] []

variable [Facts₀]

def dot_S384x128_S128x384_S384x384_1_0_0_1_n_n : DotDims S384x128 S128x384 S384x384 where
  lhsContracting := [1]
  rhsContracting := [0]
  lhsNonContracting := [0]
  rhsNonContracting := [1]
  lhsBatch := []
  rhsBatch := []
  wf := dot_S384x128_S128x384_S384x384_1_0_0_1_n_n_wf

class Facts : Prop extends Facts₀ where

variable [Facts]
-- ==== Proof.Semihard.lean ====
/-
  The scalar laws behind the triplet loss, on the extended reals.

  For an anchor row, a positive at distance `a` and a negative at distance `b`, the hinge is `½ + a − b`.
  One program forms it as `(½ + a) − b`, the other as `½ − (b − a)`. Over the reals these are one number; on the
  extended reals they differ exactly when `a` and `b` are the same infinity, where one is `+∞` and the other `−∞`.
  Both programs then clip the hinge at zero and keep it only when the clipped value lies in `(0, ½]`: a clipped
  `+∞` is above `½` and a clipped `−∞` is `0`, so both are dropped and the kept values agree for ALL `a`, `b`
  (`kept_shift`). No finiteness of the distances is needed.

  The second law moves a factor `c ≥ 0` through a maximum over a nonempty finite range taken from `−∞`
  (`mul_fold_max`): `x ↦ c · x` is monotone on the extended reals for `0 ≤ c`, and the starting value `−∞` is
  absorbed because the range is not empty.
-/
import Idealize.ShloMosaic.PureOps.Ideal
import Idealize.ShloMosaic.PureOps.Ideal.Laws
import Mathlib.Data.Finset.Fold

noncomputable section

namespace Cert.Semihard

open Idealize.ShloMosaic

/-- The f32 word `0x3F000000` denotes the real one half. -/
theorem half_eq : Ideal.ofBits .f32 0x3F000000#32 = (((1 : ℝ) / 2 : ℝ) : EReal) := by
  simp [Ideal.ofBits, Ideal.ieee, -EReal.coe_mul]; norm_num

/-- The f32 word `0xFF800000` denotes minus infinity. -/
theorem negInf_eq : Ideal.ofBits .f32 0xFF800000#32 = ⊥ := by simp [Ideal.ofBits, Ideal.ieee]

/-- A hinge value `x`, clipped at zero, kept only when the clipped value lies in `(0, h]`. -/
def kept (h x : EReal) : EReal := max x 0 * (if 0 < max x 0 ∧ max x 0 ≤ h then 1 else 0)

/-- A hinge at `+∞` is dropped: its clipped value is above every real threshold. -/
theorem kept_top (h : ℝ) : kept (h : EReal) ⊤ = 0 := by
  unfold kept
  have : max (⊤ : EReal) 0 = ⊤ := max_eq_left le_top
  rw [this, if_neg (fun hc => absurd hc.2 (by simp)), mul_zero]

/-- A hinge at `−∞` is dropped: its clipped value is zero. -/
theorem kept_bot (h : EReal) : kept h ⊥ = 0 := by
  unfold kept
  have : max (⊥ : EReal) 0 = 0 := max_eq_right bot_le
  rw [this, zero_mul]

/-- THE SHIFT LAW: `(h + a) − b` and `h − (b − a)` have the same kept value, for a real threshold `h` and ANY
    extended reals `a`, `b`. Equal as numbers unless `a = b = ±∞`; there one side is `+∞` and the other `−∞`,
    and both are dropped. -/
theorem kept_shift (h : ℝ) (a b : EReal) : kept (h : EReal) (((h : EReal) + a) - b) = kept (h : EReal) ((h : EReal) - (b - a)) := by
  induction a using EReal.rec with
  | bot =>
    induction b using EReal.rec with
    | bot =>
      have e1 : ((h : EReal) + ⊥) - ⊥ = ⊥ := by simp
      have e2 : (h : EReal) - ((⊥ : EReal) - ⊥) = ⊤ := by simp
      rw [e1, e2, kept_top, kept_bot]
    | coe b =>
      have e1 : ((h : EReal) + ⊥) - (b : EReal) = ⊥ := by simp
      have e2 : (h : EReal) - ((b : EReal) - ⊥) = ⊥ := by simp
      rw [e1, e2]
    | top =>
      have e1 : ((h : EReal) + ⊥) - ⊤ = ⊥ := by simp
      have e2 : (h : EReal) - ((⊤ : EReal) - ⊥) = ⊥ := by simp
      rw [e1, e2]
  | coe a =>
    induction b using EReal.rec with
    | bot =>
      have e1 : ((h : EReal) + (a : EReal)) - ⊥ = ⊤ := by rw [← EReal.coe_add]; simp
      have e2 : (h : EReal) - ((⊥ : EReal) - (a : EReal)) = ⊤ := by simp
      rw [e1, e2]
    | coe b =>
      have e : ((h : EReal) + (a : EReal)) - (b : EReal) = (h : EReal) - ((b : EReal) - (a : EReal)) := by
        rw [← EReal.coe_add, ← EReal.coe_sub, ← EReal.coe_sub, ← EReal.coe_sub]
        exact congrArg _ (by ring)
      rw [e]
    | top =>
      have e1 : ((h : EReal) + (a : EReal)) - ⊤ = ⊥ := by rw [← EReal.coe_add]; simp
      have e2 : (h : EReal) - ((⊤ : EReal) - (a : EReal)) = ⊥ := by simp
      rw [e1, e2]
  | top =>
    induction b using EReal.rec with
    | bot =>
      have e1 : ((h : EReal) + ⊤) - ⊥ = ⊤ := by simp
      have e2 : (h : EReal) - ((⊥ : EReal) - ⊤) = ⊤ := by simp
      rw [e1, e2]
    | coe b =>
      have e1 : ((h : EReal) + ⊤) - (b : EReal) = ⊤ := by simp
      have e2 : (h : EReal) - ((b : EReal) - ⊤) = ⊤ := by simp
      rw [e1, e2]
    | top =>
      have e1 : ((h : EReal) + ⊤) - ⊤ = ⊥ := by simp
      have e2 : (h : EReal) - ((⊤ : EReal) - ⊤) = ⊤ := by simp
      rw [e1, e2, kept_top, kept_bot]

/-- A monotone map goes through a maximum over a finite range, the starting value included. -/
theorem map_fold_max {ι : Type} (g : EReal → EReal) (hg : Monotone g) (b : EReal) (f : ι → EReal) (s : Finset ι) :
    g (s.fold max b f) = s.fold max (g b) (fun k => g (f k)) := by
  classical
  induction s using Finset.induction_on with
  | empty => simp
  | insert a s ha ih => rw [Finset.fold_insert ha, Finset.fold_insert ha, hg.map_max, ih]

/-- Over a range that is not empty, a maximum taken from any value below one of its terms is the maximum taken
    from `−∞`. -/
theorem fold_max_from {ι : Type} (b : EReal) (f : ι → EReal) (s : Finset ι) (k₀ : ι) (hk : k₀ ∈ s) (hb : b ≤ f k₀) :
    s.fold max b f = s.fold max ⊥ f := by
  apply le_antisymm
  · exact (Finset.fold_max_le _).2 ⟨hb.trans ((Finset.le_fold_max _).2 (Or.inr ⟨k₀, hk, le_rfl⟩)),
      fun x hx => (Finset.le_fold_max _).2 (Or.inr ⟨x, hx, le_rfl⟩)⟩
  · exact (Finset.fold_max_le _).2 ⟨bot_le, fun x hx => (Finset.le_fold_max _).2 (Or.inr ⟨x, hx, le_rfl⟩)⟩

/-- THE FACTOR LAW: a factor `c ≥ 0` moves through a maximum from `−∞` over a finite range that has an element `k₀`. -/
theorem mul_fold_max {ι : Type} [Fintype ι] (k₀ : ι) (c : EReal) (hc : 0 ≤ c) (f : ι → EReal) :
    c * (Finset.univ : Finset ι).fold max ⊥ f = (Finset.univ : Finset ι).fold max ⊥ (fun k => c * f k) := by
  rw [map_fold_max (fun x => c * x) (fun x y hxy => mul_le_mul_of_nonneg_left hxy hc) ⊥ f Finset.univ]
  exact fold_max_from (c * ⊥) (fun k => c * f k) Finset.univ k₀ (Finset.mem_univ _)
    (mul_le_mul_of_nonneg_left bot_le hc)

/-- The indicator of `(z, h]` as two comparison bits joined, widened to 32 bits and read as a signed integer. -/
theorem indicator_signed (t z h : EReal) :
    (((((IntOp.andi (Ideal.cmp .ogt t z) (Ideal.cmp .ole t h)).setWidth 32).toInt : ℝ)) : EReal) = if z < t ∧ t ≤ h then 1 else 0 := by
  unfold Ideal.cmp IntOp.andi
  by_cases h1 : z < t <;> by_cases h2 : t ≤ h <;> simp [h1, h2]

/-- The indicator of `(z, h]` as two comparison bits joined and read as an unsigned integer. -/
theorem indicator_unsigned (t z h : EReal) :
    ((((IntOp.andi (Ideal.cmp .ogt t z) (Ideal.cmp .ole t h)).toNat : ℝ)) : EReal) = if z < t ∧ t ≤ h then 1 else 0 := by
  unfold Ideal.cmp IntOp.andi
  by_cases h1 : z < t <;> by_cases h2 : t ≤ h <;> simp [h1, h2]

/-- THE ROW LAW. For one anchor row and one positive at distance `a` with weight `p ≥ 0`: the weight times the
    largest kept hinge `(h + a) − d k` against the negatives `k` (each scaled by `w k`) is the largest of the kept
    hinges `h − (d k − a)` scaled by `p · w k`. The shift law makes the kept values equal term by term; the factor
    law takes `p` inside the maximum; multiplication on the extended reals is commutative and associative. -/
theorem row_law {ι : Type} [Fintype ι] (k₀ : ι) (h : ℝ) (p a : EReal) (hp : 0 ≤ p) (d w : ι → EReal) :
    p * (Finset.univ : Finset ι).fold max ⊥ (fun k => kept (h : EReal) (((h : EReal) + a) - d k) * w k)
      = (Finset.univ : Finset ι).fold max ⊥ (fun k => kept (h : EReal) ((h : EReal) - (d k - a)) * (p * w k)) := by
  rw [mul_fold_max k₀ p hp]
  refine congrArg (fun f => (Finset.univ : Finset ι).fold max ⊥ f) (funext fun k => ?_)
  rw [kept_shift, mul_left_comm]

end Cert.Semihard

end
-- ==== Proof.LibKeepdims.lean ====
/-
  Keepdims layouts read at an index given by coordinates.

  A matrix `[a, b]` viewed as a stack of columns `[a, b, 1]` or as a stack of rows `[a, 1, b]` keeps each entry at
  the same row-major position; broadcasting such a view along its unit axis to `[a, b, c]` (resp. `[a, b, c]`
  from `[a, 1, c]`) repeats the entry along that axis. Together they spell the outer difference
  `x[i, j] − x[i, k]` of a matrix's row with itself.
-/
import Idealize.ShloMosaic.Lib.Pipeline.Value
import Idealize.ShloMosaic.Lib.ValueIdx

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (y : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ y h (ix3 i j k) = y (ix3 i j (0 : Fin 1)) := by
  refine broadcastTo_apply y h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (y : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ y h (ix3 i j k) = y (ix3 i (0 : Fin 1) k) := by
  refine broadcastTo_apply y h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Cert.LibKeepdims
-- ==== Proof.KernelRow.lean ====
/-
  One entry of the kernel's output block, as a formula.

  The body holds a block of 8 rows of the distance matrix (`x0`), of the negative-pair weights (`x1`) and of the
  positive-pair weights (`x2`). Entry `(b, q)` of what it stores is the positive weight `x2[b, q]` times the largest,
  over the negatives `k`, of the kept hinge `(½ + x0[b, q]) − x0[b, k]` scaled by `x1[b, k]`; the maximum starts from
  `−∞`. The column and row views of `x0` read back the matrix entry, the lane maximum is a fold of `max` over `k`, and
  the body's indicator (two comparison bits, joined, widened, converted) is the indicator of `(0, ½]`.
-/
import proofs.«139589_j43215960932893_1_alg».proof.Proof.Gen.KernelIdeal.Skeleton
import proofs.«139589_j43215960932893_1_alg».proof.Proof.Semihard
import proofs.«139589_j43215960932893_1_alg».proof.Proof.LibKeepdims
import Idealize.ShloMosaic.Lib.ValueIdx
import Idealize.ShloMosaic.Lib.Pipeline.Value
import Idealize.ShloMosaic.PureOps.Ideal.Laws

noncomputable section

namespace Cert.KernelIdeal.Row

open Cert.KernelIdeal Cert.KernelIdeal.Gen Idealize.ShloMosaic Idealize.ShloMosaic.ValueIdx Cert.Semihard Cert.LibKeepdims

/-- A lane maximum over the last axis of an `[8, 384, 384]` vector, from `−∞`, read at `(b, q)`: the fold of `max`
    over `k` of the entries `(b, q, k)`. -/
theorem laneMax_apply (src : FVec Ideal S8x384x384 .f32) (h : S8x384x384.Reduces [2] S8x384) (hφ : FKind.Formats FTy.f32)
    (hacc : (0xFF800000#32 : BitVec 32) = 0xFF800000#32) (b : Fin 8) (q : Fin 384) :
    multiReduction .maximumf [2] S8x384 src 0xFF800000#32 h hφ hacc (ix2 b q)
      = (Finset.univ : Finset (Fin 384)).fold max (Ideal.ofBits .f32 0xFF800000#32) (fun k => src (ix3 b q k)) :=
  (Ideal.multiReduction_maximumf_single src 0xFF800000#32 h hφ hacc (ix2 b q)).trans
    (congrArg (fun f => (Finset.univ : Finset (Fin 384)).fold max (Ideal.ofBits .f32 0xFF800000#32) f)
      (funext fun k => congrArg src (funext fun a => by
        match a with
        | ⟨0, _⟩ => rfl
        | ⟨1, _⟩ => rfl
        | ⟨2, _⟩ => rfl)))

/-- A joined pair of bit vectors, read at an index. -/
theorem andi_apply {s : Shape} {w : Nat} (x y : IVec s w) (i : s.Idx) : andi x y i = IntOp.andi (x i) (y i) := rfl

/-- At the ideal values a signed integer converts to the real it denotes. -/
theorem sitofp_ideal {w : Nat} (v : BitVec w) : FloatOps.sitofp (F := Ideal) FTy.f32 v = ((v.toInt : ℝ) : EReal) := rfl

/-- ENTRY `(b, q)` OF THE STORED BLOCK. -/
theorem pay_apply (x0 x1 x2 : Vec Ideal S8x384 .f32) (b : Fin 8) (q : Fin 384) :
    k0_pay1 (F := Ideal) x0 x1 x2 (ix2 b q)
      = x2 (ix2 b q) * (Finset.univ : Finset (Fin 384)).fold max (Ideal.ofBits .f32 0xFF800000#32)
          (fun k => kept (Ideal.ofBits .f32 0x3F000000#32)
            ((Ideal.ofBits .f32 0x3F000000#32 + x0 (ix2 b q)) - x0 (ix2 b k)) * x1 (ix2 b k)) := by
  unfold k0_pay1
  dsimp only
  rw [mulf_apply, shapeCast_self]
  refine (congrArg (x2 (ix2 b q) * ·) (laneMax_apply _ _ _ _ b q)).trans ?_
  simp only [mulf_apply, subf_apply, addf_apply, maximumf_apply, broadcast_apply, cmpf_apply, extui_apply, sitofp_apply,
    andi_apply, broadcastTo_ab1_abc_apply, broadcastTo_a1c_abc_apply, shapeCast_ab_ab1_apply, shapeCast_ab_a1b_apply,
    shapeCast_self, Ideal.ofBits_def, Ideal.cmpf_def, sitofp_ideal, indicator_signed, Ideal.ofBits_zero_f32]
  rfl

end Cert.KernelIdeal.Row

end
-- ==== Proof.KernelArray.lean ====
/-
  The kernel's output array after the run, as one function of the three arrays the region reads.

  Grid point `t` works on rows `8t … 8t+7` of all four windows, the full 384 columns. What it writes back is, at
  block entry `(b, q)`, the per-pair loss of anchor row `r = 8t + b` and positive `q`; the 48 blocks tile the array, so
  the array ends holding the per-pair loss everywhere.
-/
import proofs.«139589_j43215960932893_1_alg».proof.Proof.Gen.KernelIdeal.Frame
import proofs.«139589_j43215960932893_1_alg».proof.Proof.KernelRow
import Idealize.ShloMosaic.Lib.Pipeline.Value
import Idealize.ShloMosaic.Lib.ValueIdx

set_option maxRecDepth 16384

noncomputable section

namespace Cert.KernelIdeal.Array

open Cert.KernelIdeal Cert.KernelIdeal.Gen Idealize.ShloMosaic Idealize.ShloMosaic.TcCoe Idealize.ShloMosaic.ValueIdx Idealize.SL.Sem
open Cert.Semihard

variable (m : (ℓ : Loc nD τ sig) → Buf (Elt Ideal) ℓ)

theorem hz : (![0, 0] : Fin 2 → Nat) = fun _ => 0 := funext fun a => by fin_cases a <;> rfl

/-- THE PER-PAIR LOSS of anchor row `r` and positive `q`, from the distances `d`, the negative-pair weights `n` and the
    positive-pair weights `p`: `p[r, q]` times the largest kept hinge `(½ + d[r, q]) − d[r, k]` scaled by `n[r, k]`. -/
def pairLoss (d n p : S384x384.Idx → EReal) (r q : Fin 384) : EReal :=
  p (ix2 r q) * (Finset.univ : Finset (Fin 384)).fold max (Ideal.ofBits .f32 0xFF800000#32)
    (fun k => kept (Ideal.ofBits .f32 0x3F000000#32) ((Ideal.ofBits .f32 0x3F000000#32 + d (ix2 r q)) - d (ix2 r k)) * n (ix2 r k))

/-- The same as an array over `[384, 384]`. -/
def lossArr (d n p : S384x384.Idx → EReal) : S384x384.Idx → EReal :=
  fun i => pairLoss d n p ⟨(i 0).val, idx2_lt0 i⟩ ⟨(i 1).val, idx2_lt1 i⟩

theorem lossArr_ix2 (d n p : S384x384.Idx → EReal) (r q : Fin 384) : lossArr d n p (ix2 r q) = pairLoss d n p r q := rfl

/-- The printed index maps, decided over the grid: every window's block at point `t` is block row `t`, block column `0`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The row of the array that row `b` of block `t` is. -/
def rowOf (t : Fin cfg0.N) (b : Fin 8) : Fin 384 :=
  ⟨t.val * 8 + b.val, by have := lt_of_lt_of_eq t.isLt N_0; have := b.isLt; omega⟩

/-- Entry `(b, k)` of block `t` of window 0 is entry `(8t + b, k)` of its array; likewise windows 1, 2 and 3. -/
theorem emb0 (t : Fin cfg0.N) (b : Fin 8) (k : Fin 384) : ((cfg0.win 0).blk t).view.emb (ix2 b k) = ix2 (rowOf t b) k := by
  obtain ⟨e00, e01, -, -, -, -, -, -⟩ := idx_facts t
  funext a; apply Fin.ext
  match a with
  | ⟨0, _⟩ => show win0_0.index t (0 : Fin 2) * 8 + 1 * b.val = t.val * 8 + b.val; omega
  | ⟨1, _⟩ => show win0_0.index t (1 : Fin 2) * 384 + 1 * k.val = k.val; omega
theorem emb1 (t : Fin cfg0.N) (b : Fin 8) (k : Fin 384) : ((cfg0.win 1).blk t).view.emb (ix2 b k) = ix2 (rowOf t b) k := by
  obtain ⟨-, -, e10, e11, -, -, -, -⟩ := idx_facts t
  funext a; apply Fin.ext
  match a with
  | ⟨0, _⟩ => show win0_1.index t (0 : Fin 2) * 8 + 1 * b.val = t.val * 8 + b.val; omega
  | ⟨1, _⟩ => show win0_1.index t (1 : Fin 2) * 384 + 1 * k.val = k.val; omega
theorem emb2 (t : Fin cfg0.N) (b : Fin 8) (k : Fin 384) : ((cfg0.win 2).blk t).view.emb (ix2 b k) = ix2 (rowOf t b) k := by
  obtain ⟨-, -, -, -, e20, e21, -, -⟩ := idx_facts t
  funext a; apply Fin.ext
  match a with
  | ⟨0, _⟩ => show win0_2.index t (0 : Fin 2) * 8 + 1 * b.val = t.val * 8 + b.val; omega
  | ⟨1, _⟩ => show win0_2.index t (1 : Fin 2) * 384 + 1 * k.val = k.val; omega
theorem emb3 (t : Fin cfg0.N) (b : Fin 8) (k : Fin 384) : ((cfg0.win 3).blk t).view.emb (ix2 b k) = ix2 (rowOf t b) k := by
  obtain ⟨-, -, -, -, -, -, e30, e31⟩ := idx_facts t
  funext a; apply Fin.ext
  match a with
  | ⟨0, _⟩ => show win0_3.index t (0 : Fin 2) * 8 + 1 * b.val = t.val * 8 + b.val; omega
  | ⟨1, _⟩ => show win0_3.index t (1 : Fin 2) * 384 + 1 * k.val = k.val; omega

/-- The three input blocks at point `t` and the three arrays, at their literal types. -/
abbrev dblk (c : Dev nD) (t : Fin cfg0.N) : Vec Ideal S8x384 .f32 := iblk m c 0 t
abbrev nblk (c : Dev nD) (t : Fin cfg0.N) : Vec Ideal S8x384 .f32 := iblk m c 1 t
abbrev pblk (c : Dev nD) (t : Fin cfg0.N) : Vec Ideal S8x384 .f32 := iblk m c 2 t
abbrev darr (c : Dev nD) : S384x384.Idx → EReal := V m c main_v28
abbrev narr (c : Dev nD) : S384x384.Idx → EReal := V m c main_v19
abbrev parr (c : Dev nD) : S384x384.Idx → EReal := V m c main_v17

/-- Each input block, read at a row entry, is its array at that row's entry. -/
theorem dblk_apply (c : Dev nD) (t : Fin cfg0.N) (b : Fin 8) (k : Fin 384) : dblk m c t (ix2 b k) = darr m c (ix2 (rowOf t b) k) := by
  show V m c main_v28 (((cfg0.win 0).blk t).view.emb (ix2 b k)) = V m c main_v28 (ix2 (rowOf t b) k)
  rw [emb0]
theorem nblk_apply (c : Dev nD) (t : Fin cfg0.N) (b : Fin 8) (k : Fin 384) : nblk m c t (ix2 b k) = narr m c (ix2 (rowOf t b) k) := by
  show V m c main_v19 (((cfg0.win 1).blk t).view.emb (ix2 b k)) = V m c main_v19 (ix2 (rowOf t b) k)
  rw [emb1]
theorem pblk_apply (c : Dev nD) (t : Fin cfg0.N) (b : Fin 8) (k : Fin 384) : pblk m c t (ix2 b k) = parr m c (ix2 (rowOf t b) k) := by
  show V m c main_v17 (((cfg0.win 2).blk t).view.emb (ix2 b k)) = V m c main_v17 (ix2 (rowOf t b) k)
  rw [emb2]

/-- One stored entry is the per-pair loss of its row: the body's formula with each block entry read off its array. -/
theorem entry_eq (c : Dev nD) (t : Fin cfg0.N) (b : Fin 8) (q : Fin 384) :
    k0_pay1 (F := Ideal) (dblk m c t) (nblk m c t) (pblk m c t) (ix2 b q) = pairLoss (darr m c) (narr m c) (parr m c) (rowOf t b) q := by
  refine (Row.pay_apply (dblk m c t) (nblk m c t) (pblk m c t) b q).trans ?_
  unfold pairLoss
  rw [pblk_apply m c t b q, dblk_apply m c t b q]
  refine congrArg (fun f => parr m c (ix2 (rowOf t b) q) * (Finset.univ : Finset (Fin 384)).fold max (Ideal.ofBits .f32 0xFF800000#32) f)
    (funext fun k => ?_)
  rw [dblk_apply m c t b k, nblk_apply m c t b k]

/-- WHAT POINT `t` WRITES BACK is block `t` of the per-pair loss of the arrays as the region finds them. -/
theorem flushed_eq (c : Dev nD) (t : Fin cfg0.N) :
    (dats m 0 c).flushed 3 t = ((cfg0.win 3).blk t).view.read (Elt Ideal) (lossArr (darr m c) (narr m c) (parr m c)) := by
  show (cfg0.win 3).cut (grid0.coords t) ((dats m 0 c).after 3 t) = _
  rw [after0_3]
  unfold out0_3
  rw [View.canon_unit_zero hz]
  simp only [View.ld_unit_zero (S := S8x384) hz]
  funext y
  obtain ⟨b, q, rfl⟩ : ∃ (b : Fin 8) (q : Fin 384), y = ix2 b q := ⟨y 0, y 1, eq_ix2 y⟩
  show k0_pay1 (F := Ideal) (dblk m c t) (nblk m c t) (pblk m c t) (ix2 b q)
    = lossArr (darr m c) (narr m c) (parr m c) (((cfg0.win 3).blk t).view.emb (ix2 b q))
  rw [emb3, lossArr_ix2]
  exact entry_eq m c t b q

/-- An index of the array is in point `t`'s block iff each coordinate is in the block's range on its axis. -/
theorem mem_blk (t : Fin cfg0.N) (i : S384x384.Idx) :
    i ∈ ((cfg0.win 3).blk t).view.set ↔ ∀ a : Fin 2, win0_3.index t a * S8x384.size a ≤ (i a).val ∧ (i a).val < win0_3.index t a * S8x384.size a + S8x384.size a := by
  show i ∈ ((View.whole main_v29).slice (win0_3.rect t)).set ↔ _
  rw [View.set_slice_whole, Rect.mem_set_unit]
  exact Iff.rfl

/-- THE BLOCKS TILE THE ARRAY: row `r` lies in the block of point `r / 8`. -/
theorem cover (i : S384x384.Idx) : ∃ t : Fin cfg0.N, (cfg0.win 3).flush t = true ∧ i ∈ ((cfg0.win 3).blk t).view.set := by
  have hi0 : (i 0).val < 384 := idx2_lt0 i
  have hi1 : (i 1).val < 384 := idx2_lt1 i
  have hN : (i 0).val / 8 < cfg0.N := lt_of_lt_of_eq (by omega : (i 0).val / 8 < 48) N_0.symm
  refine ⟨⟨(i 0).val / 8, hN⟩, flush0_3 _, ?_⟩
  obtain ⟨-, -, -, -, -, -, e30, e31⟩ := idx_facts ⟨(i 0).val / 8, hN⟩
  rw [mem_blk]
  intro a
  match a with
  | ⟨0, _⟩ =>
    show win0_3.index ⟨(i 0).val / 8, hN⟩ (0 : Fin 2) * 8 ≤ (i 0).val ∧ (i 0).val < win0_3.index ⟨(i 0).val / 8, hN⟩ (0 : Fin 2) * 8 + 8
    rw [e30]; show (i 0).val / 8 * 8 ≤ (i 0).val ∧ (i 0).val < (i 0).val / 8 * 8 + 8; omega
  | ⟨1, _⟩ =>
    show win0_3.index ⟨(i 0).val / 8, hN⟩ (1 : Fin 2) * 384 ≤ (i 1).val ∧ (i 1).val < win0_3.index ⟨(i 0).val / 8, hN⟩ (1 : Fin 2) * 384 + 384
    rw [e31]; omega

/-- THE ARRAY AFTER THE RUN is the per-pair loss of the three arrays the region reads. -/
theorem final (c : Dev nD) :
    (dats m 0 c).arrAt 3 cfg0.N = lossArr (darr m c) (narr m c) (parr m c) :=
  (dats m 0 c).arrAt_eq_of_cover 3 _ (fun t _ => flushed_eq m c t) cover

end Cert.KernelIdeal.Array

end
-- ==== Proof.KernelTail.lean ====
/-
  The kernel's result, from the array its region leaves.

  After the region the host code multiplies the per-pair losses `X` by the positive-pair weights `P`, sums the products
  and the weights, and returns the quotient of the sums where the weights' sum is positive, zero otherwise
  (`lossOf`). The region leaves `X` in its output array; `P` is an input window's array, which the region does not
  change.
-/
import proofs.«139589_j43215960932893_1_alg».proof.Proof.Gen.KernelIdeal.Frame
import Idealize.ShloMosaic.Lib.StableHlo.Run
import Idealize.ShloMosaic.PureOps.Ideal

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen

/-- THE LOSS from the per-pair losses `X` and the positive-pair weights `P`: `Σ X·P / Σ P` where `Σ P > 0`, else `0`
    (the inner selection keeps the divisor at one where the sum is not positive). -/
def lossOf (X P : FVec Ideal S384x384 .f32) : FVec Ideal S_ .f32 :=
  select
    (cmpf .ogt (Host.reduceAdd (F := Ideal) P (constant (F := Ideal) S_ .f32 0x00000000#32) reducesTo_S384x384_S_d0_1 h_S_)
      (constant (F := Ideal) S_ .f32 0x00000000#32))
    (Host.divf (F := Ideal)
      (Host.reduceAdd (F := Ideal) (mulf X P) (constant (F := Ideal) S_ .f32 0x00000000#32) reducesTo_S384x384_S_d0_1 h_S_)
      (select
        (cmpf .ogt (Host.reduceAdd (F := Ideal) P (constant (F := Ideal) S_ .f32 0x00000000#32) reducesTo_S384x384_S_d0_1 h_S_)
          (constant (F := Ideal) S_ .f32 0x00000000#32))
        (Host.reduceAdd (F := Ideal) P (constant (F := Ideal) S_ .f32 0x00000000#32) reducesTo_S384x384_S_d0_1 h_S_)
        (id (constant (F := Ideal) S_ .f32 0x3F800000#32))))
    (id (constant (F := Ideal) S_ .f32 0x00000000#32))

variable (m : (ℓ : Loc nD τ sig) → Buf (Elt Ideal) ℓ)

/-- What the lines after the region read at the output window's array: the array as the region leaves it. -/
theorem left_out (c : Dev nD) :
    Pipeline.withArrays (cfgs 0).spec c (V0 m c) (fun w => (dats m 0 c).arrAt w (cfgs 0).N) (Proc.devRef .tc main_v29)
      = (dats m 0 c).arrAt 3 cfg0.N :=
  Pipeline.withArrays_arr spec0 launch0.win.arr_inj c _ _ 3

/-- What they read at the positive-pair weights' array: what the region found there (an input window's array is not written). -/
theorem left_pw (c : Dev nD) :
    Pipeline.withArrays (cfgs 0).spec c (V0 m c) (fun w => (dats m 0 c).arrAt w (cfgs 0).N) (Proc.devRef .tc main_v17)
      = V m c main_v17 :=
  (Pipeline.withArrays_arr spec0 launch0.win.arr_inj c _ _ 2).trans (((dats m 0 c).arrAt_in 2 rfl cfg0.N).trans (A_eq m c 2))

set_option maxHeartbeats 8000000 in
/-- THE RESULT the lines after the region compute: the loss of the output array and the positive-pair weights. -/
theorem tail_eq (c : Dev nD) :
    Pipeline.afterTail₀ cfgs (dats m) 0 (V0 m) [hostOps1, hostOps1_1, hostOps1_2, hostOps1_3] c main_v37
      = lossOf ((dats m 0 c).arrAt 3 cfg0.N) (V m c main_v17) := by
  unfold Pipeline.afterTail₀
  simp only [Gen.hostOps1, Gen.hostOps1_1, Gen.hostOps1_2, Gen.hostOps1_3, List.flatten_cons, List.flatten_nil, List.append_nil, List.cons_append,
    List.nil_append]
  after_results
  rw [left_out m c, left_pw m c]
  rfl

end Cert.KernelIdeal.Tail

end
-- ==== Proof.HostPrefix.lean ====
/-
  The three arrays the kernel's region reads, as functions of the two arguments.

  Before the region the kernel's host code computes, from the first argument, the positive-pair weights
  `p = exp(−(d̃ / mean d̃) / ¼)` (`d̃` the cosine distances of its rows) and the negative-pair weights `1 − p`, and from
  the second argument the cosine distances `d` of its rows. The reference's host code computes the same three arrays by
  the same operations in the same order, so each is the reference's own stage, with nothing to prove but that the two
  texts spell one term.
-/
import proofs.«139589_j43215960932893_1_alg».proof.Proof.Gen.KernelIdeal.Frame
import proofs.«139589_j43215960932893_1_alg».proof.Proof.Gen.ReferenceIdeal.Read
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 8000000 in
/-- The positive-pair weights the region finds are the reference's, of the first argument. -/
theorem pw_eq (c : Dev nD) :
    (V m c main_v17 : S384x384.Idx → EReal) = Cert.ReferenceIdeal.Read.val_main_v17 (F := Ideal) (m ((c : Thread nD τ).loc main_arg0)) := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

set_option maxHeartbeats 8000000 in
/-- The negative-pair weights the region finds are the reference's, of the first argument. -/
theorem nw_eq (c : Dev nD) :
    (V m c main_v19 : S384x384.Idx → EReal) = Cert.ReferenceIdeal.Read.val_main_v19 (F := Ideal) (m ((c : Thread nD τ).loc main_arg0)) := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

set_option maxHeartbeats 8000000 in
/-- The distances the region finds are the reference's, of the second argument. -/
theorem dist_eq (c : Dev nD) :
    (V m c main_v28 : S384x384.Idx → EReal) = Cert.ReferenceIdeal.Read.val_main_v33 (F := Ideal) (m ((c : Thread nD τ).loc main_arg1)) := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

end Cert.Bridge

end
-- ==== Proof.ReferenceRow.lean ====
/-
  One entry of the reference's per-pair loss, as a formula.

  For anchor `i` and positive `j` the reference takes, over the negatives `k`, the largest of
  `hinge · (indicator · (p[i, j] · n[i, k]))` with `hinge = max (½ − (d[i, k] − d[i, j])) 0` and the indicator that of
  `(0, ½]`; the maximum starts from `−∞`. It then adds a gate times zero, which changes nothing. Here `d` is the distance
  matrix of the second argument and `p`, `n` the positive and negative pair weights of the first.
-/
import proofs.«139589_j43215960932893_1_alg».proof.Proof.Gen.ReferenceIdeal.Read
import proofs.«139589_j43215960932893_1_alg».proof.Proof.Semihard
import Idealize.ShloMosaic.Lib.ValueIdx
import Idealize.ShloMosaic.PureOps.Ideal.Laws

noncomputable section

namespace Cert.ReferenceIdeal.Row

open Cert.ReferenceIdeal Cert.ReferenceIdeal.Gen Cert.ReferenceIdeal.Read Idealize.ShloMosaic Idealize.ShloMosaic.ValueIdx Cert.Semihard

/-- At the ideal values an unsigned integer converts to the real it denotes. -/
theorem uitofp_ideal {w : Nat} (v : BitVec w) : FloatOps.uitofp (F := Ideal) FTy.f32 v = ((v.toNat : ℝ) : EReal) := rfl

/-- The negative's distance `d[i, k]`: the matrix broadcast along the middle axis, read at `(i, j, k)`. -/
theorem idx_neg (i j k : Fin 384) : idx_main_v34 (idx_main_v36 (ix3 i j k)) = ix2 i k :=
  funext fun a => Fin.ext (by match a with | ⟨0, _⟩ => rfl | ⟨1, _⟩ => rfl)
/-- The positive's distance `d[i, j]`: the matrix broadcast along the last axis, read at `(i, j, k)`. -/
theorem idx_pos (i j k : Fin 384) : idx_main_v35 (idx_main_v37 (ix3 i j k)) = ix2 i j :=
  funext fun a => Fin.ext (by match a with | ⟨0, _⟩ => rfl | ⟨1, _⟩ => rfl)
/-- The positive pair's weight `p[i, j]`. -/
theorem idx_pw (i j k : Fin 384) : idx_main_v20 (idx_main_v22 (ix3 i j k)) = ix2 i j :=
  funext fun a => Fin.ext (by match a with | ⟨0, _⟩ => rfl | ⟨1, _⟩ => rfl)
/-- The negative pair's weight `n[i, k]`. -/
theorem idx_nw (i j k : Fin 384) : idx_main_v21 (idx_main_v23 (ix3 i j k)) = ix2 i k :=
  funext fun a => Fin.ext (by match a with | ⟨0, _⟩ => rfl | ⟨1, _⟩ => rfl)

theorem red : S384x384x384.Reduces [2] S384x384 := by decide

/-- The host's maximum over the last axis of a `[384, 384, 384]` array, read at `(i, j)`: the fold of `max` over `k` of the
    entries `(i, j, k)`, from the initial value. -/
theorem hostMax_apply (y : S384x384x384.Idx → EReal) (init : S_.Idx → EReal) (h' : S384x384x384.ReducesTo [2] S384x384)
    (hu : 0 < S_.numel) (i j : Fin 384) :
    Host.reduce (FloatOps.maximumf (F := Ideal) (φ := FTy.f32)) y init h' hu (ix2 i j)
      = (Finset.univ : Finset (Fin 384)).fold max (init (Shape.Idx.first hu)) (fun k => y (ix3 i j k)) :=
  (Host.reduce_eq_fold_single (FloatOps.maximumf (F := Ideal) (φ := FTy.f32)) y init h' red hu (ix2 i j)).trans
    (congrArg (fun f => (Finset.univ : Finset (Fin 384)).fold max (init (Shape.Idx.first hu)) f)
      (funext fun k => congrArg y (funext fun a => by
        match a with
        | ⟨0, _⟩ => rfl
        | ⟨1, _⟩ => rfl
        | ⟨2, _⟩ => rfl)))

/-- One term of the maximum, at `(i, j, k)`. -/
theorem term_apply (x0 x1 : (⟨S384x128, .f32⟩ : BufTy).Contents (Elt Ideal)) (i j k : Fin 384) :
    val_main_v49 (F := Ideal) x0 x1 (ix3 i j k)
      = kept (Ideal.ofBits .f32 0x3F000000#32)
          (Ideal.ofBits .f32 0x3F000000#32 - (val_main_v33 (F := Ideal) x1 (ix2 i k) - val_main_v33 (F := Ideal) x1 (ix2 i j)))
        * (val_main_v17 (F := Ideal) x0 (ix2 i j) * val_main_v19 (F := Ideal) x0 (ix2 i k)) := by
  rw [val_main_v49_apply, val_main_v48_apply, val_main_v47_apply, val_main_v46_apply, val_main_v43_apply, val_main_v45_apply,
    val_main_v42_apply, val_main_cst_9_apply, val_main_v44_apply, val_main_cst_10_apply,
    val_main_v41_apply, val_main_call2_v0_apply, val_main_call2_cst_apply, val_main_v40_apply, val_main_v39_apply, val_main_cst_8_apply,
    val_main_v38_apply, val_main_v36_apply, val_main_v34_apply, val_main_v37_apply, val_main_v35_apply,
    val_main_v24_apply, val_main_v22_apply, val_main_v20_apply, val_main_v23_apply, val_main_v21_apply,
    idx_neg, idx_pos, idx_pw, idx_nw]
  simp only [Ideal.ofBits_def, Ideal.cmpf_def, Ideal.mulf_def, Ideal.subf_def, Ideal.maximumf_def, uitofp_ideal,
    indicator_unsigned, Ideal.ofBits_zero_f32]
  exact (mul_assoc _ _ _).symm

/-- ENTRY `(i, j)` OF THE PER-PAIR LOSS: the largest term over the negatives, from `−∞`; the gate the reference adds is
    multiplied by zero. -/
theorem pair_apply (x0 x1 : (⟨S384x128, .f32⟩ : BufTy).Contents (Elt Ideal)) (i j : Fin 384) :
    val_main_v56 (F := Ideal) x0 x1 (ix2 i j)
      = (Finset.univ : Finset (Fin 384)).fold max (Ideal.ofBits .f32 0xFF800000#32) (fun k =>
          kept (Ideal.ofBits .f32 0x3F000000#32)
            (Ideal.ofBits .f32 0x3F000000#32 - (val_main_v33 (F := Ideal) x1 (ix2 i k) - val_main_v33 (F := Ideal) x1 (ix2 i j)))
          * (val_main_v17 (F := Ideal) x0 (ix2 i j) * val_main_v19 (F := Ideal) x0 (ix2 i k))) := by
  rw [val_main_v56_apply, val_main_v55_apply, val_main_v54_apply, val_main_cst_13_apply]
  simp only [Ideal.ofBits_def, Ideal.addf_def, Ideal.mulf_def, Ideal.ofBits_zero_f32, mul_zero, add_zero]
  unfold val_main_v50
  refine (hostMax_apply (val_main_v49 (F := Ideal) x0 x1) (val_main_cst_11 (F := Ideal)) reducesTo_S384x384x384_S384x384_d2 h_S_ i j).trans ?_
  exact congrArg (fun f => (Finset.univ : Finset (Fin 384)).fold max (Ideal.ofBits .f32 0xFF800000#32) f)
    (funext fun k => term_apply x0 x1 i j k)

end Cert.ReferenceIdeal.Row

end
-- ==== Proof.Bridge.lean ====
/-
  The two programs compute one number.

  Kernel: the region's output array is the per-pair loss `lossArr d n p` of the three arrays it reads, and the result is
  `lossOf` of that array and `p`. Reference: its last stage is `lossOf` of ITS per-pair stage and `p`, with `d`, `n`, `p` the
  same three arrays. So the claim is that the two per-pair arrays are equal, entry by entry: the row law
  (`Semihard.row_law`), which needs only that the positive-pair weights, being exponentials, are not negative.
-/
import proofs.«139589_j43215960932893_1_alg».proof.Proof.KernelArray
import proofs.«139589_j43215960932893_1_alg».proof.Proof.KernelTail
import proofs.«139589_j43215960932893_1_alg».proof.Proof.HostPrefix
import proofs.«139589_j43215960932893_1_alg».proof.Proof.ReferenceRow

set_option maxRecDepth 16384

noncomputable section

namespace Cert.Bridge

open Idealize.ShloMosaic Idealize.ShloMosaic.TcCoe Idealize.SL.Sem Idealize.ShloMosaic.ValueIdx
open Cert.Semihard
open Cert.KernelIdeal Cert.KernelIdeal.Gen

/-- The exponential of an extended real is not negative. -/
theorem exp_nonneg (x : EReal) : 0 ≤ Ideal.exp x := by
  induction x using EReal.rec with
  | bot => exact le_of_eq rfl
  | coe r => exact EReal.coe_nonneg.mpr (Real.exp_pos r).le
  | top => exact le_top

/-- The positive-pair weights are not negative. -/
theorem pw_nonneg (x0 : (⟨Cert.ReferenceIdeal.S384x128, .f32⟩ : BufTy).Contents (Elt Ideal)) (i : Cert.ReferenceIdeal.S384x384.Idx) :
    0 ≤ Cert.ReferenceIdeal.Read.val_main_v17 (F := Ideal) x0 i := by
  rw [Cert.ReferenceIdeal.Read.val_main_v17_apply, Ideal.hostUnary_exp_def]
  exact exp_nonneg _

/-- THE PER-PAIR LOSSES AGREE: the kernel's array, of the reference's three arrays, is the reference's per-pair stage. -/
theorem loss_eq (x0 x1 : (⟨Cert.ReferenceIdeal.S384x128, .f32⟩ : BufTy).Contents (Elt Ideal)) :
    Cert.KernelIdeal.Array.lossArr (Cert.ReferenceIdeal.Read.val_main_v33 (F := Ideal) x1)
        (Cert.ReferenceIdeal.Read.val_main_v19 (F := Ideal) x0) (Cert.ReferenceIdeal.Read.val_main_v17 (F := Ideal) x0)
      = Cert.ReferenceIdeal.Read.val_main_v56 (F := Ideal) x0 x1 := by
  funext i
  obtain ⟨r, q, rfl⟩ : ∃ (r q : Fin 384), i = ix2 r q := ⟨i 0, i 1, eq_ix2 i⟩
  rw [Cert.KernelIdeal.Array.lossArr_ix2, Cert.ReferenceIdeal.Row.pair_apply]
  unfold Cert.KernelIdeal.Array.pairLoss
  rw [negInf_eq, half_eq]
  exact row_law r ((1 : ℝ) / 2) _ _ (pw_nonneg x0 (ix2 r q))
    (fun k => Cert.ReferenceIdeal.Read.val_main_v33 (F := Ideal) x1 (ix2 r k))
    (fun k => Cert.ReferenceIdeal.Read.val_main_v19 (F := Ideal) x0 (ix2 r k))

/-- The reference's last stage is the loss of its per-pair stage and the positive-pair weights. -/
theorem ref_tail (x0 x1 : (⟨Cert.ReferenceIdeal.S384x128, .f32⟩ : BufTy).Contents (Elt Ideal)) :
    Cert.KernelIdeal.Tail.lossOf (Cert.ReferenceIdeal.Read.val_main_v56 (F := Ideal) x0 x1) (Cert.ReferenceIdeal.Read.val_main_v17 (F := Ideal) x0)
      = Cert.ReferenceIdeal.Read.val_main_v64 (F := Ideal) x0 x1 := rfl

variable (m : (ℓ : Loc nD τ sig) → Buf (Elt Ideal) ℓ) (ρ : Dev nD → PrngReg)

/-- THE KERNEL'S RESULT is the reference's last stage of the kernel's own arguments. -/
theorem kernel_result (c : Dev nD) :
    Pipeline.afterTail₀ cfgs (dats m) 0 (V0 m) [hostOps1, hostOps1_1, hostOps1_2, hostOps1_3] c main_v37
      = Cert.ReferenceIdeal.Read.val_main_v64 (F := Ideal) (m ((c : Thread nD τ).loc main_arg0)) (m ((c : Thread nD τ).loc main_arg1)) := by
  rw [Cert.KernelIdeal.Tail.tail_eq, Cert.KernelIdeal.Array.final]
  show Cert.KernelIdeal.Tail.lossOf (Cert.KernelIdeal.Array.lossArr (V m c main_v28) (V m c main_v19) (V m c main_v17)) (V m c main_v17) = _
  rw [dist_eq, nw_eq, pw_eq, loss_eq]
  exact ref_tail _ _

/-- The kernel's run, re-posted: the result at the reference's last stage of the arguments, the arguments unchanged. -/
theorem kernel_run : θ_run defs (onTc (τ := τ) (main (F := Ideal))) ⟨m, fun _ => 0, ρ⟩ (fun r => ∀ c : Dev nD,
      r.2.mem ((c.tc : Thread nD τ).loc main_v37)
        = Cert.ReferenceIdeal.Read.val_main_v64 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v37 (Pipeline.mem_restRefs_of main_v37 (by decide) (by decide))).trans (kernel_result m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Bridge

end
-- ==== Proof.lean ====
/-
  A relaxed triplet loss over 384 embeddings: the kernel against its reference, over the extended reals.

  Both programs compute, from the first argument, positive-pair weights `p = exp(−(d̃ / mean d̃) / ¼)` and negative-pair
  weights `n = 1 − p` (`d̃` the cosine distances of its rows) and, from the second argument, the cosine distances `d` of
  its rows, by the same host operations. For anchor `i` and positive `j` the per-pair loss is the largest, over the
  negatives `k`, of the hinge `½ + d[i, j] − d[i, k]`, clipped at zero and kept only in `(0, ½]`, weighted by
  `p[i, j] · n[i, k]`. The result is `Σ loss · p / Σ p` where `Σ p > 0`, else zero.

  The kernel tiles the anchors by eight and takes `p[i, j]` OUT of the maximum; the reference forms the whole
  `[384, 384, 384]` array with `p[i, j]` INSIDE. They also spell the hinge differently, `(½ + a) − b` against
  `½ − (b − a)`. The two agree on the extended reals with no finiteness assumption: the kept value of the two hinges
  is the same for all `a`, `b` (they differ only when `a = b = ±∞`, where both are dropped), and a factor `p ≥ 0` moves
  through a maximum over a nonempty range (`Proof/Semihard.lean`). The kernel's entry is `Proof/KernelRow.lean`, its
  array and result `Proof/KernelArray.lean` and `Proof/KernelTail.lean`, the shared host prefix `Proof/HostPrefix.lean`,
  the reference's entry `Proof/ReferenceRow.lean`, and the two are joined in `Proof/Bridge.lean`.

  The frames of the kernel and of its idealization are the generated ones; the reference's frame is its generated run
  with the result dropped; the idealization rewrote nothing, so `preserves` has nothing to show.
-/
import proofs.«139589_j43215960932893_1_alg».proof.Defs
import proofs.«139589_j43215960932893_1_alg».proof.Proof.Gen.Kernel
import proofs.«139589_j43215960932893_1_alg».proof.Proof.Gen.Kernel.Skeleton
import proofs.«139589_j43215960932893_1_alg».proof.Proof.Gen.Kernel.Launch
import proofs.«139589_j43215960932893_1_alg».proof.Proof.Gen.Kernel.Points
import proofs.«139589_j43215960932893_1_alg».proof.Proof.Gen.Kernel.Frame
import proofs.«139589_j43215960932893_1_alg».proof.Proof.Gen.KernelIdeal
import proofs.«139589_j43215960932893_1_alg».proof.Proof.Gen.KernelIdeal.Skeleton
import proofs.«139589_j43215960932893_1_alg».proof.Proof.Gen.KernelIdeal.Launch
import proofs.«139589_j43215960932893_1_alg».proof.Proof.Gen.KernelIdeal.Points
import proofs.«139589_j43215960932893_1_alg».proof.Proof.Gen.KernelIdeal.Frame
import proofs.«139589_j43215960932893_1_alg».proof.Proof.Gen.ReferenceIdeal
import proofs.«139589_j43215960932893_1_alg».proof.Proof.Gen.ReferenceIdeal.Run
import proofs.«139589_j43215960932893_1_alg».proof.Proof.Gen.ReferenceIdeal.Read
import proofs.«139589_j43215960932893_1_alg».proof.Proof.Gen.Pre_finite_inputs
import proofs.«139589_j43215960932893_1_alg».proof.Proof.Bridge
import Idealize.ShloMosaic.Adequacy
import Idealize.ShloMosaic.Init

noncomputable section

namespace Cert.Proof

open Idealize.ShloMosaic Idealize.SL.Sem

/-- The kernel runs and leaves its arguments as they were. -/
theorem frame_kernel : @Cert.frame_Kernel Cert.Kernel.Gen.facts Cert.Pre_finite_inputs.Gen.facts :=
  fun m ρ _ => Cert.Kernel.Gen.frame m ρ

/-- So does its idealization. -/
theorem frame_kernelIdeal : @Cert.frame_KernelIdeal Cert.KernelIdeal.Gen.facts Cert.Pre_finite_inputs.Gen.facts :=
  fun m ρ _ => Cert.KernelIdeal.Gen.frame m ρ

/-- So does the reference: its run, with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the two arguments both programs end with the reference's last stage of those
    arguments as their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v64 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Bridge.kernel_run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v64_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
